-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 90
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x1, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x1, .f32⟩
  | .hbm, ⟨81, _⟩ => ⟨S3300000x1, .f32⟩
  | .hbm, ⟨82, _⟩ => ⟨S3300000x1, .f32⟩
  | .hbm, ⟨83, _⟩ => ⟨S_, .f32⟩
  | .hbm, ⟨84, _⟩ => ⟨S100000x1, .f32⟩
  | .hbm, ⟨85, _⟩ => ⟨S3300000x1, .i32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x1, .f32⟩
  | .local _ .vmem, ⟨8, _⟩ => ⟨S10000x1, .f32⟩
  | .local _ .vmem, ⟨9, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x1_S10000x1_1_0_0_1_n_n_wf : DotDims.WF S10000x64 S64x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000, .i32⟩
  | .hbm, ⟨72, _⟩ => ⟨S3300000, .i32⟩
  | .hbm, ⟨73, _⟩ => ⟨S3300000, .i32⟩
  | .hbm, ⟨74, _⟩ => ⟨S_, .f32⟩
  | .hbm, ⟨75, _⟩ => ⟨S3300000, .f32⟩
  | .hbm, ⟨76, _⟩ => ⟨S_, .f32⟩
  | .hbm, ⟨77, _⟩ => ⟨S100000, .f32⟩
  | .hbm, ⟨78, _⟩ => ⟨S3300000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000, .f32⟩
  | .hbm, ⟨99, _⟩ => ⟨S_, .i32⟩
  | .hbm, ⟨100, _⟩ => ⟨S3300000, .i32⟩
  | .hbm, ⟨101, _⟩ => ⟨S3300000, .i1⟩
  | .hbm, ⟨102, _⟩ => ⟨S_, .i32⟩
  | .hbm, ⟨103, _⟩ => ⟨S3300000, .i32⟩
  | .hbm, ⟨104, _⟩ => ⟨S3300000, .i32⟩
  | .hbm, ⟨105, _⟩ => ⟨S3300000, .i32⟩
  | .hbm, ⟨106, _⟩ => ⟨S3300000x1, .i32⟩
  | .hbm, ⟨107, _⟩ => ⟨S3300000, .f32⟩
  | .hbm, ⟨108, _⟩ => ⟨S3300000, .f32⟩
  | .hbm, ⟨109, _⟩ => ⟨S100000x1, .f32⟩
  | .hbm, ⟨110, _⟩ => ⟨S_, .i32⟩
  | .hbm, ⟨111, _⟩ => ⟨S3300000, .i32⟩
  | .hbm, ⟨112, _⟩ => ⟨S3300000, .i1⟩
  | .hbm, ⟨113, _⟩ => ⟨S_, .i32⟩
  | .hbm, ⟨114, _⟩ => ⟨S3300000, .i32⟩
  | .hbm, ⟨115, _⟩ => ⟨S3300000, .i32⟩
  | .hbm, ⟨116, _⟩ => ⟨S3300000, .i32⟩
  | .hbm, ⟨117, _⟩ => ⟨S3300000x1, .i32⟩
  | .hbm, ⟨118, _⟩ => ⟨S3300000x1, .f32⟩
  | .hbm, ⟨119, _⟩ => ⟨S3300000x1, .f32⟩
  | .hbm, ⟨120, _⟩ => ⟨S3300000x1, .f32⟩
  | .hbm, ⟨121, _⟩ => ⟨S_, .f32⟩
  | .hbm, ⟨122, _⟩ => ⟨S100000x1, .f32⟩
  | .hbm, ⟨123, _⟩ => ⟨S3300000x1, .i32⟩
  | .hbm, ⟨124, _⟩ => ⟨S100000x1, .f32⟩
  | .hbm, ⟨125, _⟩ => ⟨S1x1, .f32⟩
  | .hbm, ⟨126, _⟩ => ⟨S100000x1, .f32⟩
  | .hbm, ⟨127, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Glue.lean ====
/-
  The host side of the two-layer graph convolution, as functions of arrays.

  The edge list `e : i32[2, E]` (E = 3 200 000) gives a source row and a destination row; both get the n = 100 000
  self loops `0 … n-1` appended (`withLoops`). The degree of a node is the number of (looped) edges that end in it, a
  scatter-add of ones (`degree`); `invSqrt` is `deg^(-1/2)` where the degree is positive and 0 elsewhere; the weight of an
  edge is the product of that at its two ends (`edgeWeight`). An index below zero is wrapped by adding n before it is
  used to gather (`wrapIdx`). One layer takes node features `h`, gathers the source's row for every edge, scales it by
  the edge's weight, scatter-adds the rows at the destinations and adds the bias: `layer1` (64 features, then the maximum
  with 0) and `layer2` (one feature).

  Each stretch of host operations of the program is then read at ANY contents `V` of the buffers it starts from: the
  buffer it computes is one of these functions of the buffers it reads, and a buffer it does not write keeps its contents.
-/
import proofs.«128815_j25804163514759_1_alg».proof.Proof.Gen.KernelIdeal.Launch
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.StableHlo

variable {F : FTy → Type} [FloatOps F]

/-! ## The stages as functions -/

/-- A row of E endpoints followed by the n self loops `0 … n-1`. -/
def withLoops (row : (⟨S3200000, .i32⟩ : BufTy).Contents (Elt F)) : (⟨S3300000, .i32⟩ : BufTy).Contents (Elt F) :=
  concatenate S3300000 0 [⟨S3200000, row⟩, ⟨S100000, (iotaInDim S100000 32 0)⟩] concatenates_S3200000_S100000_S3300000_d0

/-- The sources of the looped edges: row 0 of the edge list. -/
def srcOf (e : (⟨S2x3200000, .i32⟩ : BufTy).Contents (Elt F)) : (⟨S3300000, .i32⟩ : BufTy).Contents (Elt F) :=
  withLoops (F := F) (shapeCast _ (extractStridedSlice S1x3200000 ![0, 0] e slices_S2x3200000_S1x3200000_0_0) shapeCasts_S1x3200000_S3200000)

/-- The destinations of the looped edges: row 1 of the edge list. -/
def dstOf (e : (⟨S2x3200000, .i32⟩ : BufTy).Contents (Elt F)) : (⟨S3300000, .i32⟩ : BufTy).Contents (Elt F) :=
  withLoops (F := F) (shapeCast _ (extractStridedSlice S1x3200000 ![1, 0] e slices_S2x3200000_S1x3200000_1_0) shapeCasts_S1x3200000_S3200000)

/-- A vector of edge indices as a column of one-entry index vectors. -/
def asColumn (s : (⟨S3300000, .i32⟩ : BufTy).Contents (Elt F)) : (⟨S3300000x1, .i32⟩ : BufTy).Contents (Elt F) :=
  broadcastInDim S3300000x1 ![0] bcast_S3300000_S3300000x1_0 s

/-- An index below zero counts from the end: `s + n` there, `s` elsewhere; as a column. -/
def wrapIdx (s : (⟨S3300000, .i32⟩ : BufTy).Contents (Elt F)) : (⟨S3300000x1, .i32⟩ : BufTy).Contents (Elt F) :=
  asColumn (F := F) (select (cmpi .slt s (broadcastInDim S3300000 ![] bcast_S_S3300000 (constantI S_ 32 0#32)))
    (addi s (broadcastInDim S3300000 ![] bcast_S_S3300000 (constantI S_ 32 100000#32))) s)

/-- The number of looped edges ending in each node: ones scatter-added at the destinations. -/
def degree (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32))
    (asColumn (F := F) d) (broadcastInDim S3300000 ![] bcast_S_S3300000 (constant S_ .f32 0x3F800000#32))

/-- `deg^(-1/2)` where the degree is positive, 0 elsewhere. -/
def invSqrt (d : (⟨S3300000, .i32⟩ : BufTy).Contents (Elt F)) : (⟨S100000, .f32⟩ : BufTy).Contents (Elt F) :=
  select (cmpf (F := F) .ogt (degree (F := F) d) (broadcastInDim S100000 ![] bcast_S_S100000 (constant S_ .f32 0x00000000#32)))
    (Host.powf (degree (F := F) d) (broadcastInDim S100000 ![] bcast_S_S100000 (constant S_ .f32 0xBF000000#32)))
    (broadcastInDim S100000 ![] bcast_S_S100000 (constant S_ .f32 0x00000000#32))

/-- The weight of each looped edge: `invSqrt` at its source times `invSqrt` at its destination. -/
def edgeWeight (s d : (⟨S3300000, .i32⟩ : BufTy).Contents (Elt F)) : (⟨S3300000, .f32⟩ : BufTy).Contents (Elt F) :=
  mulf (Host.gather gather_S100000_S3300000x1_S3300000_n_0_n_n_0_1_1 (invSqrt (F := F) d) (wrapIdx (F := F) s))
    (Host.gather gather_S100000_S3300000x1_S3300000_n_0_n_n_0_1_1 (invSqrt (F := F) d) (wrapIdx (F := F) d))

/-- The first layer after its dense product `h`: gather the source rows, scale by the edge weights, scatter-add at
    the destinations, add the bias, keep the positive part. -/
def layer1 (h : (⟨S100000x64, .f32⟩ : BufTy).Contents (Elt F)) (s d : (⟨S3300000, .i32⟩ : BufTy).Contents (Elt F))
    (wgt : (⟨S3300000, .f32⟩ : BufTy).Contents (Elt F)) (b : (⟨S64, .f32⟩ : BufTy).Contents (Elt F)) : (⟨S100000x64, .f32⟩ : BufTy).Contents (Elt F) :=
  maximumf (addf (Host.scatterAdd scatter_S100000x64_S3300000x1_S3300000x64_1_0_0_1 (broadcastInDim S100000x64 ![] bcast_S_S100000x64 (constant S_ .f32 0x00000000#32))
      (asColumn (F := F) d)
      (mulf (Host.gather gather_S100000x64_S3300000x1_S3300000x64_1_0_n_n_0_1_164 h (wrapIdx (F := F) s))
        (broadcastInDim S3300000x64 ![0, 1] bcast_S3300000x1_S3300000x64_0_1 (broadcastInDim S3300000x1 ![0] bcast_S3300000_S3300000x1_0 wgt))))
    (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second layer after its dense product `h`: the same aggregation on one feature, plus the bias. -/
def layer2 (h : (⟨S100000x1, .f32⟩ : BufTy).Contents (Elt F)) (s d : (⟨S3300000, .i32⟩ : BufTy).Contents (Elt F))
    (wgt : (⟨S3300000, .f32⟩ : BufTy).Contents (Elt F)) (b : (⟨S1, .f32⟩ : BufTy).Contents (Elt F)) : (⟨S100000x1, .f32⟩ : BufTy).Contents (Elt F) :=
  addf (Host.scatterAdd scatter_S100000x1_S3300000x1_S3300000x1_1_0_0_1 (broadcastInDim S100000x1 ![] bcast_S_S100000x1 (constant S_ .f32 0x00000000#32))
      (asColumn (F := F) d)
      (mulf (Host.gather gather_S100000x1_S3300000x1_S3300000x1_1_0_n_n_0_1_11 h (wrapIdx (F := F) s))
        (broadcastInDim S3300000x1 ![0] bcast_S3300000_S3300000x1_0 wgt)))
    (broadcastInDim S100000x1 ![0, 1] bcast_S1x1_S100000x1_0_1 (broadcastInDim S1x1 ![1] bcast_S1_S1x1_1 b))

/-! ## The stretches before the first dense product -/

variable (V : Valuation τ sig (Elt F))

/-- The buffers' contents when the first dense product starts. -/
abbrev atEntry : Valuation τ sig (Elt F) := after hostOps0_2 (after hostOps0_1 (after hostOps0 V))

theorem atEntry_src : atEntry V (Proc.devRef .tc main_v5) = srcOf (F := F) (V (Proc.devRef .tc main_arg1)) := by
  unfold atEntry; after_results_simp <;> rfl
theorem atEntry_dst : atEntry V (Proc.devRef .tc main_v6) = dstOf (F := F) (V (Proc.devRef .tc main_arg1)) := by
  unfold atEntry; after_results_simp <;> rfl
theorem atEntry_weight : atEntry V (Proc.devRef .tc main_v30)
    = edgeWeight (F := F) (srcOf (F := F) (V (Proc.devRef .tc main_arg1))) (dstOf (F := F) (V (Proc.devRef .tc main_arg1))) := by
  unfold atEntry; after_results_simp <;> rfl
theorem atEntry_arg0 : atEntry V (Proc.devRef .tc main_arg0) = V (Proc.devRef .tc main_arg0) := by
  unfold atEntry; after_results_simp <;> rfl
theorem atEntry_arg2 : atEntry V (Proc.devRef .tc main_arg2) = V (Proc.devRef .tc main_arg2) := by
  unfold atEntry; after_results_simp <;> rfl
theorem atEntry_arg3 : atEntry V (Proc.devRef .tc main_arg3) = V (Proc.devRef .tc main_arg3) := by
  unfold atEntry; after_results_simp <;> rfl
theorem atEntry_arg4 : atEntry V (Proc.devRef .tc main_arg4) = V (Proc.devRef .tc main_arg4) := by
  unfold atEntry; after_results_simp <;> rfl
theorem atEntry_arg5 : atEntry V (Proc.devRef .tc main_arg5) = V (Proc.devRef .tc main_arg5) := by
  unfold atEntry; after_results_simp <;> rfl

/-! ## The stretches between the two dense products -/

/-- The buffers' contents when the second dense product starts, from those the first one left. -/
abbrev atMiddle : Valuation τ sig (Elt F) := after hostOps1_1 (after hostOps1 V)

theorem atMiddle_hidden : atMiddle V (Proc.devRef .tc main_v48)
    = layer1 (F := F) (V (Proc.devRef .tc main_v31)) (V (Proc.devRef .tc main_v5)) (V (Proc.devRef .tc main_v6))
        (V (Proc.devRef .tc main_v30)) (V (Proc.devRef .tc main_arg3)) := by
  unfold atMiddle; after_results_simp <;> rfl
theorem atMiddle_src : atMiddle V (Proc.devRef .tc main_v5) = V (Proc.devRef .tc main_v5) := by
  unfold atMiddle; after_results_simp <;> rfl
theorem atMiddle_dst : atMiddle V (Proc.devRef .tc main_v6) = V (Proc.devRef .tc main_v6) := by
  unfold atMiddle; after_results_simp <;> rfl
theorem atMiddle_weight : atMiddle V (Proc.devRef .tc main_v30) = V (Proc.devRef .tc main_v30) := by
  unfold atMiddle; after_results_simp <;> rfl
theorem atMiddle_arg4 : atMiddle V (Proc.devRef .tc main_arg4) = V (Proc.devRef .tc main_arg4) := by
  unfold atMiddle; after_results_simp <;> rfl
theorem atMiddle_arg5 : atMiddle V (Proc.devRef .tc main_arg5) = V (Proc.devRef .tc main_arg5) := by
  unfold atMiddle; after_results_simp <;> rfl

/-! ## The stretch after the second dense product -/

theorem atExit_result : after hostOps2 V (Proc.devRef .tc main_v64)
    = layer2 (F := F) (V (Proc.devRef .tc main_v49)) (V (Proc.devRef .tc main_v5)) (V (Proc.devRef .tc main_v6))
        (V (Proc.devRef .tc main_v30)) (V (Proc.devRef .tc main_arg5)) := by
  after_results_simp <;> rfl

end Cert.KernelIdeal.Glue

end
-- ==== Proof.Dense0.lean ====
/-
  The first dense product `x · W₁`, tile by tile.

  The grid has ten points; point `t` stages rows `10000 t … 10000 t + 9999` of `x` (all 128 columns), the whole
  128 × 64 matrix `W₁`, and writes back rows `10000 t … 10000 t + 9999` of the result (all 64 columns). The body rounds
  both tiles to a narrower float format — the identity on the extended reals — and multiplies them into a zero
  accumulator, so entry `(r, j)` of a tile is `Σ_k x_tile[r, k] · W₁[k, j]`. Read through the tiles' rectangles this is
  entry `(10000 t + r, j)` of `product x W₁`, the array whose entry `(i, j)` is `Σ_k x[i, k] · W₁[k, j]`; every row
  `i` lies in the tile of point `i / 10000`, so the ten write-backs leave exactly `product x W₁`.
-/
import proofs.«128815_j25804163514759_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.Pipeline (Dat Cfg Window)

/-! ## The product as one function of the two arrays -/

/-- Entry `(i₀, k)` of the left array, for the result's index `i`. -/
abbrev leftAt (i : S100000x64.Idx) (k : Fin 128) : S100000x128.Idx := fun a => match a with
  | ⟨0, _⟩ => ⟨(i 0).val, (i 0).isLt⟩
  | ⟨1, _⟩ => ⟨k.val, k.isLt⟩
/-- Entry `(k, i₁)` of the right array, for the result's index `i`. -/
abbrev rightAt (i : S100000x64.Idx) (k : Fin 128) : S128x64.Idx := fun a => match a with
  | ⟨0, _⟩ => ⟨k.val, k.isLt⟩
  | ⟨1, _⟩ => ⟨(i 1).val, (i 1).isLt⟩

/-- `x · w`: entry `i = (i₀, i₁)` is `Σ_k x[i₀, k] · w[k, i₁]`, on the extended reals. -/
def product (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (leftAt i k) * w (rightAt i k)

/-! ## One tile's product at an index -/

/-- The same two index maps inside a tile of 10000 rows. -/
abbrev tileLeftAt (j : S10000x64.Idx) (k : Fin 128) : S10000x128.Idx := fun a => match a with
  | ⟨0, _⟩ => ⟨(j 0).val, (j 0).isLt⟩
  | ⟨1, _⟩ => ⟨k.val, k.isLt⟩
abbrev tileRightAt (j : S10000x64.Idx) (k : Fin 128) : S128x64.Idx := fun a => match a with
  | ⟨0, _⟩ => ⟨k.val, k.isLt⟩
  | ⟨1, _⟩ => ⟨(j 1).val, (j 1).isLt⟩

theorem lhs_axis0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_axis1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_axis0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_axis1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body stores, at an index of the tile: the contraction over the 128 shared coordinates (rounding to the
    narrower format is the identity here, and the accumulator is zero). -/
theorem tile_apply (x0 : (⟨S10000x128, .f32⟩ : BufTy).Contents (Elt Ideal)) (x1 : (⟨S128x64, .f32⟩ : BufTy).Contents (Elt Ideal)) (j : S10000x64.Idx) :
    k0_pay1 (F := Ideal) x0 x1 j = ∑ k : Fin 128, x0 (tileLeftAt j k) * x1 (tileRightAt j k) := by
  unfold k0_pay1
  refine (Ideal.matmul_constant_zero_apply dot_S10000x128_S128x64_S10000x64_1_0_0_1_n_n none _ _ j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = tileLeftAt j k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx j ((ValueIdx.contrEquiv1 dot_S10000x128_S128x64_S10000x64_1_0_0_1_n_n 128 rfl rfl).symm k) = tileRightAt j k := funext fun a => Fin.ext (by
    match a with
    | ⟨0, _⟩ => exact (rhs_axis0 _ _).trans hk
    | ⟨1, _⟩ => exact rhs_axis1 _ _)
  rw [el, er]
  rfl

/-! ## From the tiles to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the left tile and the result tile are tile `t` of their rows and take every
    column; the right matrix is always the one whole tile. -/
theorem tile_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row tiles is some point's. -/
theorem tile_onto : ∀ q : Fin 10, ∃ t : Fin cfg0.N, win0_2.index t = ![q.val, 0] :=
  (by decide +kernel : ∀ q : Fin 10, ∃ t : Fin grid0.N, win0_2.index t = ![q.val, 0])

/-- What point `t` writes back is tile `t` of `product` of the two arrays as the product starts with them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4⟩ := tile_indices t
  funext j
  show k0_pay1 (F := Ideal) (iblk0 V c 0 t) (iblk0 V c 1 t) j = product (V c main_arg0) (V c main_arg2) (((cfg0.win 2).blk t).view.emb j)
  refine (tile_apply (iblk0 V c 0 t) (iblk0 V c 1 t) j).trans ?_
  unfold product
  refine Finset.sum_congr rfl fun k _ => ?_
  have hl : iblk0 V c 0 t (tileLeftAt j k) = V c main_arg0 (leftAt (((cfg0.win 2).blk t).view.emb j) k) := by
    show V c main_arg0 (((cfg0.win 0).blk t).view.emb (tileLeftAt j k)) = V c main_arg0 (leftAt (((cfg0.win 2).blk t).view.emb j) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hr : iblk0 V c 1 t (tileRightAt j k) = V c main_arg2 (rightAt (((cfg0.win 2).blk t).view.emb j) k) := by
    show V c main_arg2 (((cfg0.win 1).blk t).view.emb (tileRightAt j k)) = V c main_arg2 (rightAt (((cfg0.win 2).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hl, hr]

/-- An index of the result is in point `t`'s tile iff each coordinate is in the tile's range on its axis. -/
theorem mem_tile (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row `i₀` lies in the tile of point `i₀ / 10000`, which is written back. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := tile_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the ten points the result array holds `product` of the two input arrays. -/
theorem final (c : Dev nD) : (dat0 V c).arrAt 2 cfg0.N = product (V c main_arg0) (V c main_arg2) :=
  (dat0 V c).arrAt_eq_of_cover 2 (product (V c main_arg0) (V c main_arg2)) (fun t _ => flushed_eq V c t) (covered)

end Cert.KernelIdeal.Dense0

end
-- ==== Proof.Dense1.lean ====
/-
  The second dense product `h · W₂`, tile by tile.

  Again ten points; point `t` stages rows `10000 t … 10000 t + 9999` of the hidden features `h` (all 64 columns), the
  whole 64 × 1 matrix `W₂`, and writes back rows `10000 t … 10000 t + 9999` of the one-column result. The body casts the
  left tile to its own shape (the identity), rounds both tiles to a narrower float format (the identity on the extended
  reals) and multiplies them into a zero accumulator: entry `(r, 0)` of a tile is `Σ_k h_tile[r, k] · W₂[k, 0]`, which
  read through the rectangles is entry `(10000 t + r, 0)` of `product h W₂`. Row `i` lies in the tile of point
  `i / 10000`, so the ten write-backs leave exactly `product h W₂`.
-/
import proofs.«128815_j25804163514759_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.Pipeline (Dat Cfg Window)

/-! ## The product as one function of the two arrays -/

/-- Entry `(i₀, k)` of the left array, for the result's index `i`. -/
abbrev leftAt (i : S100000x1.Idx) (k : Fin 64) : S100000x64.Idx := fun a => match a with
  | ⟨0, _⟩ => ⟨(i 0).val, (i 0).isLt⟩
  | ⟨1, _⟩ => ⟨k.val, k.isLt⟩
/-- Entry `(k, i₁)` of the right array, for the result's index `i`. -/
abbrev rightAt (i : S100000x1.Idx) (k : Fin 64) : S64x1.Idx := fun a => match a with
  | ⟨0, _⟩ => ⟨k.val, k.isLt⟩
  | ⟨1, _⟩ => ⟨(i 1).val, (i 1).isLt⟩

/-- `h · w`: entry `i = (i₀, i₁)` is `Σ_k h[i₀, k] · w[k, i₁]`, on the extended reals. -/
def product (h : (⟨S100000x64, .f32⟩ : BufTy).Contents (Elt Ideal)) (w : (⟨S64x1, .f32⟩ : BufTy).Contents (Elt Ideal)) :
    (⟨S100000x1, .f32⟩ : BufTy).Contents (Elt Ideal) :=
  fun i => ∑ k : Fin 64, h (leftAt i k) * w (rightAt i k)

/-! ## One tile's product at an index -/

/-- The same two index maps inside a tile of 10000 rows. -/
abbrev tileLeftAt (j : S10000x1.Idx) (k : Fin 64) : S10000x64.Idx := fun a => match a with
  | ⟨0, _⟩ => ⟨(j 0).val, (j 0).isLt⟩
  | ⟨1, _⟩ => ⟨k.val, k.isLt⟩
abbrev tileRightAt (j : S10000x1.Idx) (k : Fin 64) : S64x1.Idx := fun a => match a with
  | ⟨0, _⟩ => ⟨k.val, k.isLt⟩
  | ⟨1, _⟩ => ⟨(j 1).val, (j 1).isLt⟩

theorem lhs_axis0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_axis1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhs_axis0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhs_axis1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- What the body stores, at an index of the tile: the contraction over the 64 shared coordinates (the cast of the
    left tile to its own shape and the rounding to the narrower format are identities here, the accumulator is zero). -/
theorem tile_apply (x0 : (⟨S10000x64, .f32⟩ : BufTy).Contents (Elt Ideal)) (x1 : (⟨S64x1, .f32⟩ : BufTy).Contents (Elt Ideal)) (j : S10000x1.Idx) :
    k1_pay1 (F := Ideal) x0 x1 j = ∑ k : Fin 64, x0 (tileLeftAt j k) * x1 (tileRightAt j k) := by
  unfold k1_pay1
  refine (Ideal.matmul_constant_zero_apply dot_S10000x64_S64x1_S10000x1_1_0_0_1_n_n none _ _ j).trans ?_
  rw [← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx j ((ValueIdx.contrEquiv1 dot_S10000x64_S64x1_S10000x1_1_0_0_1_n_n 64 rfl rfl).symm k) = tileLeftAt j k := funext fun a => Fin.ext (by
    match a with
    | ⟨0, _⟩ => exact lhs_axis0 _ _
    | ⟨1, _⟩ => exact (lhs_axis1 _ _).trans hk)
  have er : dot_S10000x64_S64x1_S10000x1_1_0_0_1_n_n.rhsIdx j ((ValueIdx.contrEquiv1 dot_S10000x64_S64x1_S10000x1_1_0_0_1_n_n 64 rfl rfl).symm k) = tileRightAt j k := funext fun a => Fin.ext (by
    match a with
    | ⟨0, _⟩ => exact (rhs_axis0 _ _).trans hk
    | ⟨1, _⟩ => exact rhs_axis1 _ _)
  rw [el, er]
  show (shapeCast S10000x64 x0 shapeCasts_S10000x64_S10000x64) (tileLeftAt j k) * x1 (tileRightAt j k) = x0 (tileLeftAt j k) * x1 (tileRightAt j k)
  rw [shapeCast_self]

/-! ## From the tiles to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the left tile and the result tile are tile `t` of their rows and take every
    column; the right matrix is always the one whole tile. -/
theorem tile_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the ten row tiles is some point's. -/
theorem tile_onto : ∀ q : Fin 10, ∃ t : Fin cfg1.N, win1_2.index t = ![q.val, 0] :=
  (by decide +kernel : ∀ q : Fin 10, ∃ t : Fin grid1.N, win1_2.index t = ![q.val, 0])

/-- What point `t` writes back is tile `t` of `product` of the two arrays as the product starts with them. -/
theorem flushed_eq (c : Dev nD) (t : Fin cfg1.N) :
    (dat1 V c).flushed 2 t = ((cfg1.win 2).blk t).view.read (Elt Ideal) (product (V c main_v48) (V c main_arg4)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x1) zero_offsets]
  obtain ⟨e0, e1, e2, e3, e4⟩ := tile_indices t
  funext j
  show k1_pay1 (F := Ideal) (iblk1 V c 0 t) (iblk1 V c 1 t) j = product (V c main_v48) (V c main_arg4) (((cfg1.win 2).blk t).view.emb j)
  refine (tile_apply (iblk1 V c 0 t) (iblk1 V c 1 t) j).trans ?_
  unfold product
  refine Finset.sum_congr rfl fun k _ => ?_
  have hl : iblk1 V c 0 t (tileLeftAt j k) = V c main_v48 (leftAt (((cfg1.win 2).blk t).view.emb j) k) := by
    show V c main_v48 (((cfg1.win 0).blk t).view.emb (tileLeftAt j k)) = V c main_v48 (leftAt (((cfg1.win 2).blk t).view.emb j) k)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have hr : iblk1 V c 1 t (tileRightAt j k) = V c main_arg4 (rightAt (((cfg1.win 2).blk t).view.emb j) k) := by
    show V c main_arg4 (((cfg1.win 1).blk t).view.emb (tileRightAt j k)) = V c main_arg4 (rightAt (((cfg1.win 2).blk t).view.emb j) k)
    refine congrArg _ (funext fun a => Fin.ext ?_)
    match a with
    | ⟨0, _⟩ => show win1_1.index t (0 : Fin 2) * 64 + 1 * k.val = k.val; omega
    | ⟨1, _⟩ => show win1_1.index t (1 : Fin 2) * 1 + 1 * (j 1).val = win1_2.index t (1 : Fin 2) * 1 + 1 * (j 1).val; omega
  rw [hl, hr]

/-- An index of the result is in point `t`'s tile iff each coordinate is in the tile's range on its axis. -/
theorem mem_tile (t : Fin cfg1.N) (i : S100000x1.Idx) :
    i ∈ ((cfg1.win 2).blk t).view.set ↔ ∀ a : Fin 2, win1_2.index t a * S10000x1.size a ≤ (i a).val ∧ (i a).val < win1_2.index t a * S10000x1.size a + S10000x1.size a := by
  show i ∈ ((View.whole main_v49).slice (win1_2.rect t)).set ↔ _
  rw [View.set_slice_whole, Rect.mem_set_unit]
  exact Iff.rfl

/-- Row `i₀` lies in the tile of point `i₀ / 10000`, which is written back. -/
theorem covered (i : S100000x1.Idx) : ∃ t : Fin cfg1.N, (cfg1.win 2).flush t = true ∧ i ∈ ((cfg1.win 2).blk t).view.set := by
  have hi0 : (i 0).val < 100000 := (i 0).isLt
  have hi1 : (i 1).val < 1 := (i 1).isLt
  obtain ⟨t, ht⟩ := tile_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 1 ≤ (i 1).val ∧ (i 1).val < win1_2.index t (1 : Fin 2) * 1 + 1; omega

/-- After the ten points the result array holds `product` of the two input arrays. -/
theorem final (c : Dev nD) : (dat1 V c).arrAt 2 cfg1.N = product (V c main_v48) (V c main_arg4) :=
  (dat1 V c).arrAt_eq_of_cover 2 (product (V c main_v48) (V c main_arg4)) (fun t _ => flushed_eq V c t) (covered)

end Cert.KernelIdeal.Dense1

end
-- ==== Proof.Network.lean ====
/-
  The two-layer graph convolution as ONE function of its six arguments, on the extended reals:
  `layer2 (layer1 (x · W₁) … b₁ · W₂) … b₂`, the edge endpoints and the edge weights computed once from the edge list.
-/
import proofs.«128815_j25804163514759_1_alg».proof.Proof.Glue
import proofs.«128815_j25804163514759_1_alg».proof.Proof.Dense0
import proofs.«128815_j25804163514759_1_alg».proof.Proof.Dense1

noncomputable section

namespace Cert.KernelIdeal.Network

open Cert.KernelIdeal Idealize.ShloMosaic

/-- Node features `x`, edge list `e`, weights and biases of the two layers ↦ the network's one output per node. -/
def network (x : (⟨S100000x128, .f32⟩ : BufTy).Contents (Elt Ideal)) (e : (⟨S2x3200000, .i32⟩ : BufTy).Contents (Elt Ideal))
    (w1 : (⟨S128x64, .f32⟩ : BufTy).Contents (Elt Ideal)) (b1 : (⟨S64, .f32⟩ : BufTy).Contents (Elt Ideal))
    (w2 : (⟨S64x1, .f32⟩ : BufTy).Contents (Elt Ideal)) (b2 : (⟨S1, .f32⟩ : BufTy).Contents (Elt Ideal)) :
    (⟨S100000x1, .f32⟩ : BufTy).Contents (Elt Ideal) :=
  Glue.layer2 (F := Ideal)
    (Dense1.product
      (Glue.layer1 (F := Ideal) (Dense0.product x w1) (Glue.srcOf (F := Ideal) e) (Glue.dstOf (F := Ideal) e)
        (Glue.edgeWeight (F := Ideal) (Glue.srcOf (F := Ideal) e) (Glue.dstOf (F := Ideal) e)) b1)
      w2)
    (Glue.srcOf (F := Ideal) e) (Glue.dstOf (F := Ideal) e)
    (Glue.edgeWeight (F := Ideal) (Glue.srcOf (F := Ideal) e) (Glue.dstOf (F := Ideal) e)) b2

end Cert.KernelIdeal.Network

end
-- ==== Proof.KernelResult.lean ====
/-
  What the program leaves in its result buffer, followed through its run.

  The run alternates stretches of host operations with the two dense products. A buffer that a stretch or a product
  does not write keeps its contents, so the edge endpoints, the edge weights and the arguments computed or given at the
  start are still there when a later stretch reads them; the buffer a product writes holds that product of the arrays it
  started from (the two modules of the products); and the buffer a stretch computes is its stage function of the
  buffers it reads (the module of the host stages). Composed, the result buffer ends at `network` of the six arguments.
-/
import proofs.«128815_j25804163514759_1_alg».proof.Proof.Gen.KernelIdeal.Frame
import proofs.«128815_j25804163514759_1_alg».proof.Proof.Glue
import proofs.«128815_j25804163514759_1_alg».proof.Proof.Dense0
import proofs.«128815_j25804163514759_1_alg».proof.Proof.Dense1
import proofs.«128815_j25804163514759_1_alg».proof.Proof.Network

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## When the first product starts -/

theorem entry_arg0 : W3 m ρ c (Proc.devRef .tc main_arg0) = (m ((c : Thread nD τ).loc main_arg0)) := Glue.atEntry_arg0 (W0 m ρ c)
theorem entry_arg2 : W3 m ρ c (Proc.devRef .tc main_arg2) = (m ((c : Thread nD τ).loc main_arg2)) := Glue.atEntry_arg2 (W0 m ρ c)
theorem entry_arg3 : W3 m ρ c (Proc.devRef .tc main_arg3) = (m ((c : Thread nD τ).loc main_arg3)) := Glue.atEntry_arg3 (W0 m ρ c)
theorem entry_arg4 : W3 m ρ c (Proc.devRef .tc main_arg4) = (m ((c : Thread nD τ).loc main_arg4)) := Glue.atEntry_arg4 (W0 m ρ c)
theorem entry_arg5 : W3 m ρ c (Proc.devRef .tc main_arg5) = (m ((c : Thread nD τ).loc main_arg5)) := Glue.atEntry_arg5 (W0 m ρ c)
theorem entry_src : W3 m ρ c (Proc.devRef .tc main_v5) = (Glue.srcOf (F := Ideal) (m ((c : Thread nD τ).loc main_arg1))) := Glue.atEntry_src (W0 m ρ c)
theorem entry_dst : W3 m ρ c (Proc.devRef .tc main_v6) = (Glue.dstOf (F := Ideal) (m ((c : Thread nD τ).loc main_arg1))) := Glue.atEntry_dst (W0 m ρ c)
theorem entry_weight : W3 m ρ c (Proc.devRef .tc main_v30) = (Glue.edgeWeight (F := Ideal) (Glue.srcOf (F := Ideal) (m ((c : Thread nD τ).loc main_arg1))) (Glue.dstOf (F := Ideal) (m ((c : Thread nD τ).loc main_arg1)))) := Glue.atEntry_weight (W0 m ρ c)

/-! ## When the first product has ended -/

theorem first_product : W4 m ρ c (Proc.devRef .tc main_v31) = (Dense0.product (m ((c : Thread nD τ).loc main_arg0)) (m ((c : Thread nD τ).loc main_arg2))) :=
  (W4_arr m ρ c 2).trans ((Dense0.final (V3 m ρ) c).trans (congrArg₂ Dense0.product (entry_arg0 m ρ c) (entry_arg2 m ρ c)))
theorem first_src : W4 m ρ c (Proc.devRef .tc main_v5) = (Glue.srcOf (F := Ideal) (m ((c : Thread nD τ).loc main_arg1))) := (W4_of_ne m ρ c main_v5 (by decide)).trans (entry_src m ρ c)
theorem first_dst : W4 m ρ c (Proc.devRef .tc main_v6) = (Glue.dstOf (F := Ideal) (m ((c : Thread nD τ).loc main_arg1))) := (W4_of_ne m ρ c main_v6 (by decide)).trans (entry_dst m ρ c)
theorem first_weight : W4 m ρ c (Proc.devRef .tc main_v30) = (Glue.edgeWeight (F := Ideal) (Glue.srcOf (F := Ideal) (m ((c : Thread nD τ).loc main_arg1))) (Glue.dstOf (F := Ideal) (m ((c : Thread nD τ).loc main_arg1)))) := (W4_of_ne m ρ c main_v30 (by decide)).trans (entry_weight m ρ c)
theorem first_arg3 : W4 m ρ c (Proc.devRef .tc main_arg3) = (m ((c : Thread nD τ).loc main_arg3)) := (W4_of_ne m ρ c main_arg3 (by decide)).trans (entry_arg3 m ρ c)
theorem first_arg4 : W4 m ρ c (Proc.devRef .tc main_arg4) = (m ((c : Thread nD τ).loc main_arg4)) := (W4_of_ne m ρ c main_arg4 (by decide)).trans (entry_arg4 m ρ c)
theorem first_arg5 : W4 m ρ c (Proc.devRef .tc main_arg5) = (m ((c : Thread nD τ).loc main_arg5)) := (W4_of_ne m ρ c main_arg5 (by decide)).trans (entry_arg5 m ρ c)

/-! ## When the second product starts -/

theorem hidden : W6 m ρ c (Proc.devRef .tc main_v48) = (Glue.layer1 (F := Ideal) (Dense0.product (m ((c : Thread nD τ).loc main_arg0)) (m ((c : Thread nD τ).loc main_arg2))) (Glue.srcOf (F := Ideal) (m ((c : Thread nD τ).loc main_arg1))) (Glue.dstOf (F := Ideal) (m ((c : Thread nD τ).loc main_arg1))) (Glue.edgeWeight (F := Ideal) (Glue.srcOf (F := Ideal) (m ((c : Thread nD τ).loc main_arg1))) (Glue.dstOf (F := Ideal) (m ((c : Thread nD τ).loc main_arg1)))) (m ((c : Thread nD τ).loc main_arg3))) :=
  (Glue.atMiddle_hidden (W4 m ρ c)).trans (by
    rw [first_product m ρ c, first_src m ρ c, first_dst m ρ c, first_weight m ρ c, first_arg3 m ρ c])
theorem middle_src : W6 m ρ c (Proc.devRef .tc main_v5) = (Glue.srcOf (F := Ideal) (m ((c : Thread nD τ).loc main_arg1))) := (Glue.atMiddle_src (W4 m ρ c)).trans (first_src m ρ c)
theorem middle_dst : W6 m ρ c (Proc.devRef .tc main_v6) = (Glue.dstOf (F := Ideal) (m ((c : Thread nD τ).loc main_arg1))) := (Glue.atMiddle_dst (W4 m ρ c)).trans (first_dst m ρ c)
theorem middle_weight : W6 m ρ c (Proc.devRef .tc main_v30) = (Glue.edgeWeight (F := Ideal) (Glue.srcOf (F := Ideal) (m ((c : Thread nD τ).loc main_arg1))) (Glue.dstOf (F := Ideal) (m ((c : Thread nD τ).loc main_arg1)))) := (Glue.atMiddle_weight (W4 m ρ c)).trans (first_weight m ρ c)
theorem middle_arg4 : W6 m ρ c (Proc.devRef .tc main_arg4) = (m ((c : Thread nD τ).loc main_arg4)) := (Glue.atMiddle_arg4 (W4 m ρ c)).trans (first_arg4 m ρ c)
theorem middle_arg5 : W6 m ρ c (Proc.devRef .tc main_arg5) = (m ((c : Thread nD τ).loc main_arg5)) := (Glue.atMiddle_arg5 (W4 m ρ c)).trans (first_arg5 m ρ c)

/-! ## When the second product has ended -/

theorem second_product : W7 m ρ c (Proc.devRef .tc main_v49) = (Dense1.product (Glue.layer1 (F := Ideal) (Dense0.product (m ((c : Thread nD τ).loc main_arg0)) (m ((c : Thread nD τ).loc main_arg2))) (Glue.srcOf (F := Ideal) (m ((c : Thread nD τ).loc main_arg1))) (Glue.dstOf (F := Ideal) (m ((c : Thread nD τ).loc main_arg1))) (Glue.edgeWeight (F := Ideal) (Glue.srcOf (F := Ideal) (m ((c : Thread nD τ).loc main_arg1))) (Glue.dstOf (F := Ideal) (m ((c : Thread nD τ).loc main_arg1)))) (m ((c : Thread nD τ).loc main_arg3))) (m ((c : Thread nD τ).loc main_arg4))) :=
  (W7_arr m ρ c 2).trans ((Dense1.final (V6 m ρ) c).trans (congrArg₂ Dense1.product (hidden m ρ c) (middle_arg4 m ρ c)))
theorem second_src : W7 m ρ c (Proc.devRef .tc main_v5) = (Glue.srcOf (F := Ideal) (m ((c : Thread nD τ).loc main_arg1))) := (W7_of_ne m ρ c main_v5 (by decide)).trans (middle_src m ρ c)
theorem second_dst : W7 m ρ c (Proc.devRef .tc main_v6) = (Glue.dstOf (F := Ideal) (m ((c : Thread nD τ).loc main_arg1))) := (W7_of_ne m ρ c main_v6 (by decide)).trans (middle_dst m ρ c)
theorem second_weight : W7 m ρ c (Proc.devRef .tc main_v30) = (Glue.edgeWeight (F := Ideal) (Glue.srcOf (F := Ideal) (m ((c : Thread nD τ).loc main_arg1))) (Glue.dstOf (F := Ideal) (m ((c : Thread nD τ).loc main_arg1)))) := (W7_of_ne m ρ c main_v30 (by decide)).trans (middle_weight m ρ c)
theorem second_arg5 : W7 m ρ c (Proc.devRef .tc main_arg5) = (m ((c : Thread nD τ).loc main_arg5)) := (W7_of_ne m ρ c main_arg5 (by decide)).trans (middle_arg5 m ρ c)

/-! ## The result -/

/-- The result buffer at the last boundary holds the network of the six arguments as launched. -/
theorem result_eq : W8 m ρ c (Proc.devRef .tc main_v64)
    = Network.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Glue.atExit_result (W7 m ρ c)).trans (by
    rw [second_product m ρ c, second_src m ρ c, second_dst m ρ c, second_weight m ρ c, second_arg5 m ρ c]
    rfl)

end Cert.KernelIdeal.Result

end
-- ==== Proof.RefNetwork.lean ====
/-
  The reference computes the same network.

  Its host operations, named one stage at a time, are: the edge endpoints with their self loops, the degrees and the
  edge weights; the product `x · W₁` as a contraction; the first aggregation, bias and positive part; the endpoints and the
  weights a SECOND time, from the same edge list and hence the same arrays; the product with `W₂`; the second aggregation
  and bias. The aggregation stages are, operation for operation, the stage functions the kernel's program applies
  (for any float values, by unfolding the stages' names); the two contractions are the two `product`s index by index.
-/
import proofs.«128815_j25804163514759_1_alg».proof.Proof.RefRead
import proofs.«128815_j25804163514759_1_alg».proof.Proof.Network

set_option maxRecDepth 16384

noncomputable section

namespace Cert.ReferenceIdeal.SameNetwork

open Cert.ReferenceIdeal Cert.ReferenceIdeal.ReadP Idealize.ShloMosaic Idealize.SL.Sem

section AnyFloats

variable {F : FTy → Type} [FloatOps F]

/-- The hidden features: the first layer's stage function of the first contraction, for any float values. -/
theorem hidden_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) :
    val_main_v48 (F := F) x0 x1 x2 x3
      = Cert.KernelIdeal.Glue.layer1 (F := F) (val_main_v31 (F := F) x0 x2) (Cert.KernelIdeal.Glue.srcOf (F := F) x1) (Cert.KernelIdeal.Glue.dstOf (F := F) x1)
          (Cert.KernelIdeal.Glue.edgeWeight (F := F) (Cert.KernelIdeal.Glue.srcOf (F := F) x1) (Cert.KernelIdeal.Glue.dstOf (F := F) x1)) x3 := rfl

/-- The output: the second layer's stage function of the second contraction, the endpoints and weights it recomputes
    being the same arrays. -/
theorem output_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F))
    (x4 : (⟨S64x1, .f32⟩ : BufTy).Contents (Elt F)) (x5 : (⟨S1, .f32⟩ : BufTy).Contents (Elt F)) :
    val_main_v91 (F := F) x0 x1 x2 x3 x4 x5
      = Cert.KernelIdeal.Glue.layer2 (F := F) (val_main_v76 (F := F) x0 x1 x2 x3 x4) (Cert.KernelIdeal.Glue.srcOf (F := F) x1) (Cert.KernelIdeal.Glue.dstOf (F := F) x1)
          (Cert.KernelIdeal.Glue.edgeWeight (F := F) (Cert.KernelIdeal.Glue.srcOf (F := F) x1) (Cert.KernelIdeal.Glue.dstOf (F := F) x1)) x5 := rfl

end AnyFloats

/-- The first contraction is `product`, index by index. -/
theorem first_contraction (x0 : (⟨S100000x128, .f32⟩ : BufTy).Contents (Elt Ideal)) (x2 : (⟨S128x64, .f32⟩ : BufTy).Contents (Elt Ideal)) :
    val_main_v31 (F := Ideal) x0 x2 = Cert.KernelIdeal.Dense0.product x0 x2 :=
  funext fun i => (val_main_v31_apply x0 x2 i).trans rfl

/-- The second contraction is `product` of the hidden features, index by index. -/
theorem second_contraction (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal))
    (x4 : (⟨S64x1, .f32⟩ : BufTy).Contents (Elt Ideal)) :
    val_main_v76 (F := Ideal) x0 x1 x2 x3 x4 = Cert.KernelIdeal.Dense1.product (val_main_v48 (F := Ideal) x0 x1 x2 x3) x4 :=
  funext fun i => (val_main_v76_apply x0 x1 x2 x3 x4 i).trans rfl

/-- The reference's last stage is `network` of the six arguments. -/
theorem same_network (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal))
    (x4 : (⟨S64x1, .f32⟩ : BufTy).Contents (Elt Ideal)) (x5 : (⟨S1, .f32⟩ : BufTy).Contents (Elt Ideal)) :
    val_main_v91 (F := Ideal) x0 x1 x2 x3 x4 x5 = Cert.KernelIdeal.Network.network x0 x1 x2 x3 x4 x5 := by
  rw [output_eq, second_contraction, hidden_eq, first_contraction]
  rfl

end Cert.ReferenceIdeal.SameNetwork

end
-- ==== Proof.lean ====
/-
  A two-layer graph convolution: `out = Â · relu(Â · (x W₁) + b₁) W₂ + b₂`, where `Â` is the symmetrically normalised
  adjacency with self loops, applied by gathering source rows, scaling by the edge weights and scatter-adding at the
  destinations.

  The kernel's program computes the two dense products `x W₁` and `h W₂` in tiles of 10000 rows on the matrix unit (the
  inputs rounded to a narrower float format first, the accumulator zero) and everything else with the same host
  operations as the reference; the reference computes the products as contractions and recomputes the edge weights for
  the second layer. On the extended reals rounding to another format is the identity and a product into a zero
  accumulator is the plain sum, so each tiled product is the contraction (a sum over the shared axis, entry by entry; the
  tiles cover the rows), the recomputed weights are the same arrays, and both programs end with `network` of the six
  arguments. No law of the extended reals beyond `0 + s = s` is used, so the inputs' finiteness is not needed.

  The three frames: the two programs with kernels by their generated frame certificates, the reference by its run with
  the result dropped. The idealization rewrote no operation, so nothing is to be preserved.
-/
import proofs.«128815_j25804163514759_1_alg».proof.Defs
import proofs.«128815_j25804163514759_1_alg».proof.Proof.Gen.Kernel
import proofs.«128815_j25804163514759_1_alg».proof.Proof.Gen.Kernel.Frame
import proofs.«128815_j25804163514759_1_alg».proof.Proof.Gen.KernelIdeal
import proofs.«128815_j25804163514759_1_alg».proof.Proof.Gen.KernelIdeal.Frame
import proofs.«128815_j25804163514759_1_alg».proof.Proof.Gen.ReferenceIdeal
import proofs.«128815_j25804163514759_1_alg».proof.Proof.Gen.Pre_finite_inputs
import proofs.«128815_j25804163514759_1_alg».proof.Proof.KRun
import proofs.«128815_j25804163514759_1_alg».proof.Proof.KernelResult
import proofs.«128815_j25804163514759_1_alg».proof.Proof.RefRun
import proofs.«128815_j25804163514759_1_alg».proof.Proof.RefRead
import proofs.«128815_j25804163514759_1_alg».proof.Proof.RefNetwork
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the statement about the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs, from memories that agree on the arguments, end with `network` of the arguments in their result. -/
theorem algebraic : Cert.algebraic_KernelIdeal_ReferenceIdeal := by
  intro m ρ m' ρ' _ hagree
  refine ⟨fun c => Cert.KernelIdeal.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result_eq m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v91_eq, Cert.ReferenceIdeal.SameNetwork.same_network,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
